-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg4 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg4 main_v34
  let main_c_13 : IVec S_ 32 := constantI S_ 32 64#32
  let main_v36 : IVec S50000 32 := broadcastInDim S50000 ![] bcast_S_S50000 main_c_13
  let main_v37 : IVec S50000 1 := cmpi .slt main_arg4 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg4 : IVec S50000 32) (main_arg6 : FVec F S64 .f32) (main_arg7 : FVec F S64x64 .f32) (main_arg8 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg4 main_v33

def fn {F : FTy → Type} [FloatOps F] (main_arg0 : FVec F S50000x64 .f32) (main_arg1 : IVec S2x800000 32) (main_arg2 : FVec F S800000x64 .f32) (main_arg3 : FVec F S64x64 .f32) (main_arg4 : IVec S50000 32) (main_arg5 : FVec F S192x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg6 main_arg7 main_arg8 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x64 : Shape := ⟨2, ![1, 64]⟩
abbrev S1000x64 : Shape := ⟨2, ![1000, 64]⟩
abbrev S1000x1 : Shape := ⟨2, ![1000, 1]⟩
abbrev S1000x192 : Shape := ⟨2, ![1000, 192]⟩

abbrev nBuf : Space → Nat
  | .hbm => 31
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S50000x1, .i32⟩
  | .hbm, ⟨28, _⟩ => ⟨S1x64, .f32⟩
  | .hbm, ⟨29, _⟩ => ⟨S1x64, .f32⟩
  | .hbm, ⟨30, _⟩ => ⟨S50000x64, .f32⟩
  | .local _ .vmem, ⟨0, _⟩ => ⟨S1000x64, .f32⟩
  | .local _ .vmem, ⟨1, _⟩ => ⟨S1000x64, .f32⟩
  | .local _ .vmem, ⟨2, _⟩ => ⟨S1000x64, .f32⟩
  | .local _ .vmem, ⟨3, _⟩ => ⟨S1000x64, .f32⟩
  | .local _ .vmem, ⟨4, _⟩ => ⟨S1000x1, .i32⟩
  | .local _ .vmem, ⟨5, _⟩ => ⟨S1000x1, .i32⟩
  | .local _ .vmem, ⟨6, _⟩ => ⟨S64x64, .f32⟩
  | .local _ .vmem, ⟨7, _⟩ => ⟨S192x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S1000x64, .f32⟩
  | .local _ .vmem, ⟨12, _⟩ => ⟨S1000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S50000_S50000x1 : S50000.ShapeCasts S50000x1
  shapeCasts_S64_S1x64 : S64.ShapeCasts S1x64
  iota_S1000x64_d1_w32 : S1000x64.Iotas .tc 32 [1]
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  natLt_1_32 : 1 < 32
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  concatenates_S1000x64_S1000x64_S1000x64_S1000x192_d1 : Shape.Concatenates [S1000x64, S1000x64, S1000x64] S1000x192 1
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S1000x64_S64x64_S1000x64_1_0_0_1_n_n_wf : DotDims.WF S1000x64 S64x64 S1000x64 [1] [0] [0] [1] [] []
  dot_S1000x192_S192x64_S1000x64_1_0_0_1_n_n_wf : DotDims.WF S1000x192 S192x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S50000x64.size a
  hwx0_1 : ∀ i : grid0.Coords, EltTy.bits .f32 = 32 ∨ (Rect.block (s := S50000x64) S1000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .i32 = 32 ∨ (Rect.block (s := S50000x1) S1000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .f32 = 32 ∨ (Rect.block (s := S192x64) S192x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x64.size a ≤ S50000x64.size a
  hwx0_8 : ∀ i : grid0.Coords, EltTy.bits .f32 = 32 ∨ (Rect.block (s := S50000x64) S1000x64.size (cc0_transform_8 i) (hinb0_8 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x192_S192x64_S1000x64_1_0_0_1_n_n : DotDims S1000x192 S192x64 S1000x64 where
  lhsContracting := [1]
  rhsContracting := [0]
  lhsNonContracting := [0]
  rhsNonContracting := [1]
  lhsBatch := []
  rhsBatch := []
  wf := dot_S1000x192_S192x64_S1000x64_1_0_0_1_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x192 : Shape := ⟨2, ![50000, 192]⟩
abbrev S1x64 : Shape := ⟨2, ![1, 64]⟩

abbrev nBuf : Space → Nat
  | .hbm => 48
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x64, .f32⟩
  | .hbm, ⟨36, _⟩ => ⟨S50000x192, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S64x64_S50000x1_S50000x64_1_0_n_n_0_1_164_wf : GatherDims.WF S64x64 S50000x1 S50000x64 [1] [0] [] [0] [] 1 ![1, 64]
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The function both programs compute, and the pure facts that join their two spellings of it.

  For every node `r` the result row is a two-layer perceptron of the row
  `[ x r | mean of the edge features arriving at r | u (batch r) ]` of width 192:
  `out r q = Σ_k max (Σ_j row r j · W1 j k + b1 k) 0 · W2 k q + b2 q`.
  The two programs differ only in how they obtain the third block of the row: the kernel multiplies the
  indicator row `(batch r = k)_k` into `u`, the reference reads row `batch r` of `u` (a negative label
  counted from the end, the result clamped into the table). For a label in `[0, 64)` both are row `batch r` of `u`:
  a sum whose terms all vanish but one (`indicator_sum`), against a read at an index that is neither wrapped nor
  clamped (`wrapped_label`). No law of the extended reals beyond `0 · a = 0`, `1 · a = a` and `a + 0 = a` is used,
  so finiteness of the float inputs plays no part.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators
open Idealize.ShloMosaic Idealize.ShloMosaic.ValueIdx

namespace Cert.NodeMlp

/-- Three rows of width 64 laid side by side: columns 0–63 from `a`, 64–127 from `b`, 128–191 from `c`. -/
def joined (a b c : Fin 64 → EReal) (j : Fin 192) : EReal :=
  if h : j.val < 64 then a ⟨j.val, h⟩
  else if h' : j.val < 128 then b ⟨j.val - 64, by omega⟩
  else c ⟨j.val - 128, by have := j.isLt; omega⟩

/-- The perceptron on one row `a` of width 192: `max (a · W1 + b1) 0 · W2 + b2`, at output column `q`. -/
def perceptron (a : Fin 192 → EReal) (W1 : (⟨2, ![192, 64]⟩ : Shape).Idx → EReal) (b1 : Fin 64 → EReal)
    (W2 : (⟨2, ![64, 64]⟩ : Shape).Idx → EReal) (b2 : Fin 64 → EReal) (q : Fin 64) : EReal :=
  (∑ k : Fin 64, max ((∑ j : Fin 192, a j * W1 (ix2 j k)) + b1 k) 0 * W2 (ix2 k q)) + b2 q

/-- The whole result over `n` nodes: row `r` is the perceptron of `[x r | ve r | ug r]`. -/
def result {n : Nat} (x ve : (⟨2, ![n, 64]⟩ : Shape).Idx → EReal) (ug : Fin n → Fin 64 → EReal)
    (W1 : (⟨2, ![192, 64]⟩ : Shape).Idx → EReal) (b1 : Fin 64 → EReal)
    (W2 : (⟨2, ![64, 64]⟩ : Shape).Idx → EReal) (b2 : Fin 64 → EReal) : (⟨2, ![n, 64]⟩ : Shape).Idx → EReal :=
  fun i => perceptron (joined (fun c => x (ix2 (i 0) c)) (fun c => ve (ix2 (i 0) c)) (ug (i 0))) W1 b1 W2 b2 (i 1)

/-- The kernel's indicator entry: the bit `w = k` widened to a word and converted to a float. -/
def indicator (w : BitVec 32) (k : Fin 64) : EReal :=
  ((((IntOp.cmpi .eq w (BitVec.ofNat 32 k.val)).setWidth 32).toInt : ℝ) : EReal)

/-- The kernel's third block: the indicator row of the label times the table. -/
def pickedBySum (w : BitVec 32) (u : (⟨2, ![64, 64]⟩ : Shape).Idx → EReal) (q : Fin 64) : EReal :=
  ∑ k : Fin 64, indicator w k * u (ix2 k q)

/-- The reference's label after jnp's wrap of a negative index: `w + 64` where `w < 0`, else `w`. -/
def wrapped (w : BitVec 32) : BitVec 32 :=
  Scalar.select (IntOp.cmpi .slt w 0#32) (IntOp.addi w 64#32) w

/-- The reference's third block: the table's row at the wrapped label read signed and clamped into `[0, 63]`. -/
def pickedByIndex (w : BitVec 32) (u : (⟨2, ![64, 64]⟩ : Shape).Idx → EReal) (q : Fin 64) : EReal :=
  u (ix2 ⟨min (wrapped w).toInt.toNat 63, by omega⟩ q)

/-- A label is in range when it passes the two signed tests the precondition makes: `0 ≤ w` and `w < 64`. -/
def InRange (w : BitVec 32) : Prop := IntOp.cmpi .sge w 0#32 = 1#1 ∧ IntOp.cmpi .slt w 64#32 = 1#1

theorem inRange_toNat {w : BitVec 32} (h : InRange w) : w.toNat < 64 := by
  obtain ⟨h0, h1⟩ := h
  simp only [IntOp.cmpi] at h0 h1
  have a0 : (0 : Int) ≤ w.toInt := by
    by_contra hc
    simp [BitVec.sle, hc] at h0
  have a1 : w.toInt < 64 := by
    by_contra hc
    simp [BitVec.slt, hc] at h1
  have := BitVec.toInt_eq_toNat_cond w
  split at this <;> omega

/-- The indicator is 1 at the label and 0 elsewhere. -/
theorem indicator_eq (w : BitVec 32) (k : Fin 64) : indicator w k = if w.toNat = k.val then 1 else 0 := by
  unfold indicator
  have hk : (BitVec.ofNat 32 k.val).toNat = k.val := by
    rw [BitVec.toNat_ofNat]; exact Nat.mod_eq_of_lt (by have := k.isLt; omega)
  by_cases h : w.toNat = k.val
  · have hw : w = BitVec.ofNat 32 k.val := BitVec.eq_of_toNat_eq (by rw [hk, h])
    rw [if_pos h, (StableHlo.Predicate.cmpi_eq_iff).2 hw]
    norm_num
  · have hw : ¬ w = BitVec.ofNat 32 k.val := fun e => h (by rw [e, hk])
    have hb : IntOp.cmpi .eq w (BitVec.ofNat 32 k.val) = 0#1 :=
      eq_zero_of_ne_one (fun e => hw ((StableHlo.Predicate.cmpi_eq_iff).1 e))
    rw [if_neg h, hb]
    norm_num

/-- For a label in range the indicator row picks row `w` of the table: every other term of the sum is `0 · a = 0`. -/
theorem indicator_sum {w : BitVec 32} (h : InRange w) (u : (⟨2, ![64, 64]⟩ : Shape).Idx → EReal) (q : Fin 64) :
    pickedBySum w u q = u (ix2 ⟨w.toNat, inRange_toNat h⟩ q) := by
  unfold pickedBySum
  rw [Finset.sum_eq_single (⟨w.toNat, inRange_toNat h⟩ : Fin 64)]
  · rw [indicator_eq, if_pos rfl, one_mul]
  · intro k _ hk
    rw [indicator_eq, if_neg (fun e => hk (Fin.ext e.symm)), zero_mul]
  · intro hn; exact absurd (Finset.mem_univ _) hn

/-- For a label in range the reference's wrap and clamp do nothing. -/
theorem wrapped_label {w : BitVec 32} (h : InRange w) (u : (⟨2, ![64, 64]⟩ : Shape).Idx → EReal) (q : Fin 64) :
    pickedByIndex w u q = u (ix2 ⟨w.toNat, inRange_toNat h⟩ q) := by
  have hlt := inRange_toNat h
  have hneg : IntOp.cmpi .slt w 0#32 = 0#1 := by
    apply eq_zero_of_ne_one
    intro e
    simp only [IntOp.cmpi] at e
    have hi : w.toInt = w.toNat := StableHlo.Predicate.toInt_eq_toNat_of_lt (by omega)
    simp only [BitVec.slt, hi] at e
    have hb := (StableHlo.Predicate.ofBool_eq_one_iff _).1 e
    have hc : (w.toNat : Int) < 0 := of_decide_eq_true hb
    omega
  have hwr : wrapped w = w := by unfold wrapped; rw [hneg]; exact select_zero _ _
  unfold pickedByIndex
  congr 1
  funext d
  match d with
  | ⟨0, _⟩ =>
    apply Fin.ext
    show min (wrapped w).toInt.toNat 63 = w.toNat
    rw [hwr, StableHlo.Predicate.toInt_eq_toNat_of_lt (by omega)]
    simp only [Int.toNat_natCast]
    omega
  | ⟨1, _⟩ => rfl

/-- So under the range condition the two spellings of the third block agree. -/
theorem picked_eq {w : BitVec 32} (h : InRange w) (u : (⟨2, ![64, 64]⟩ : Shape).Idx → EReal) (q : Fin 64) :
    pickedBySum w u q = pickedByIndex w u q := (indicator_sum h u q).trans (wrapped_label h u q).symm

end Cert.NodeMlp

end
-- ==== Proof.BlockIdx.lean ====
/-
  The arrays the kernel's region finds, the function of them its result array will hold, and where each grid point's
  blocks lie.

  Grid point `t` of the 50 stages block row `t` (rows 1000 t … 1000 t + 999) of the node features, of the edge means
  and of the label column, and the one block of the table, of each weight matrix and of each bias row; it writes back
  block row `t` of the result. The result array's function: row `r` is the perceptron of
  `[ x r | edge mean r | Σ_k (label r = k) · u k ]`.
-/
import proofs.«409109_j53970559042217_1_alg».proof.Proof.Gen.KernelIdeal.Value
import proofs.«409109_j53970559042217_1_alg».proof.Proof.Spec

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

/-! ## The arrays the region finds, at their literal types -/

abbrev xArr (c : Dev nD) : Vec Ideal S50000x64 .f32 := V m c main_arg0
abbrev veArr (c : Dev nD) : Vec Ideal S50000x64 .f32 := V m c main_v13
abbrev lblArr (c : Dev nD) : Vec Ideal S50000x1 .i32 := V m c main_v14
abbrev uArr (c : Dev nD) : Vec Ideal S64x64 .f32 := V m c main_arg3
abbrev w1Arr (c : Dev nD) : Vec Ideal S192x64 .f32 := V m c main_arg5
abbrev b1Arr (c : Dev nD) : Vec Ideal S1x64 .f32 := V m c main_v15
abbrev w2Arr (c : Dev nD) : Vec Ideal S64x64 .f32 := V m c main_arg7
abbrev b2Arr (c : Dev nD) : Vec Ideal S1x64 .f32 := V m c main_v16

/-- The result array as ONE function of those arrays. -/
def whole (c : Dev nD) : Vec Ideal S50000x64 .f32 :=
  result (n := 50000) (xArr m c) (veArr m c) (fun r q => pickedBySum (lblArr m c (ix2 r 0)) (uArr m c) q)
    (w1Arr m c) (fun k => b1Arr m c (ix2 0 k)) (w2Arr m c) (fun k => b2Arr m c (ix2 0 k))

theorem hz : (![0, 0] : Fin 2 → Nat) = fun _ => 0 := funext fun a => by fin_cases a <;> rfl

/-- The printed index maps, decided over the 50 grid points: the row windows sit at block row `t`, column block 0; the
    table, the weights and the bias rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem t_lt (t : Fin cfg0.N) : t.val < 50 := lt_of_lt_of_eq t.isLt N_0

/-- Row `p` of block `t` is row `1000 t + p` of the array. -/
def rowOf (t : Fin cfg0.N) (p : Fin 1000) : Fin 50000 := ⟨t.val * 1000 + p.val, by have := t_lt t; have := p.isLt; omega⟩

end Cert.KernelIdeal.BlockValue

end
-- ==== Proof.BlockRows.lean ====
/-
  The three row windows read where the output's block says: row `p` of block `t` of the node features, of the edge
  means and of the label column is row `1000 t + p` of the array. Each is stated first for an arbitrary array of the
  window's shape (the block's offset is the index map's, decided over the grid), then at the array the region finds.
-/
import proofs.«409109_j53970559042217_1_alg».proof.Proof.BlockIdx

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

theorem read_row0 (t : Fin cfg0.N) (A : Vec Ideal S50000x64 .f32) (p : Fin 1000) (q : Fin 64) :
    ((cfg0.win 0).blk t).view.read (Elt Ideal) A (ix2 p q) = A (ix2 (rowOf t p) q) := by
  show A (((cfg0.win 0).blk t).view.emb (ix2 p q)) = A (ix2 (rowOf t p) q)
  refine congrArg A (funext fun a => Fin.ext ?_)
  obtain ⟨e0, e1, -⟩ := idx_facts t
  match a with
  | ⟨0, _⟩ => show win0_0.index t (0 : Fin 2) * 1000 + 1 * p.val = t.val * 1000 + p.val; omega
  | ⟨1, _⟩ => show win0_0.index t (1 : Fin 2) * 64 + 1 * q.val = q.val; omega

theorem read_row1 (t : Fin cfg0.N) (A : Vec Ideal S50000x64 .f32) (p : Fin 1000) (q : Fin 64) :
    ((cfg0.win 1).blk t).view.read (Elt Ideal) A (ix2 p q) = A (ix2 (rowOf t p) q) := by
  show A (((cfg0.win 1).blk t).view.emb (ix2 p q)) = A (ix2 (rowOf t p) q)
  refine congrArg A (funext fun a => Fin.ext ?_)
  obtain ⟨-, -, e0, e1, -⟩ := idx_facts t
  match a with
  | ⟨0, _⟩ => show win0_1.index t (0 : Fin 2) * 1000 + 1 * p.val = t.val * 1000 + p.val; omega
  | ⟨1, _⟩ => show win0_1.index t (1 : Fin 2) * 64 + 1 * q.val = q.val; omega

theorem read_row2 (t : Fin cfg0.N) (A : Vec Ideal S50000x1 .i32) (p : Fin 1000) :
    ((cfg0.win 2).blk t).view.read (Elt Ideal) A (ix2 p 0) = A (ix2 (rowOf t p) 0) := by
  show A (((cfg0.win 2).blk t).view.emb (ix2 p 0)) = A (ix2 (rowOf t p) 0)
  refine congrArg A (funext fun a => Fin.ext ?_)
  obtain ⟨-, -, -, -, e0, e1, -⟩ := idx_facts t
  match a with
  | ⟨0, _⟩ => show win0_2.index t (0 : Fin 2) * 1000 + 1 * p.val = t.val * 1000 + p.val; omega
  | ⟨1, _⟩ => show win0_2.index t (1 : Fin 2) * 1 + 1 * 0 = 0; omega

theorem blk0 (c : Dev nD) (t : Fin cfg0.N) (p : Fin 1000) (q : Fin 64) :
    iblk m c 0 t (ix2 p q) = xArr m c (ix2 (rowOf t p) q) := read_row0 t (xArr m c) p q

theorem blk1 (c : Dev nD) (t : Fin cfg0.N) (p : Fin 1000) (q : Fin 64) :
    iblk m c 1 t (ix2 p q) = veArr m c (ix2 (rowOf t p) q) := read_row1 t (veArr m c) p q

theorem blk2 (c : Dev nD) (t : Fin cfg0.N) (p : Fin 1000) :
    iblk m c 2 t (ix2 p 0) = lblArr m c (ix2 (rowOf t p) 0) := read_row2 t (lblArr m c) p

end Cert.KernelIdeal.BlockValue

end
-- ==== Proof.BlockTables.lean ====
/-
  The five windows that do not move with the grid: the one block of the table, of each weight matrix and of each bias
  row is the whole array, at every point.
-/
import proofs.«409109_j53970559042217_1_alg».proof.Proof.BlockIdx

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

theorem blk3 (c : Dev nD) (t : Fin cfg0.N) : iblk m c 3 t = uArr m c := by
  funext y
  show V m c main_arg3 (((cfg0.win 3).blk t).view.emb y) = V m c main_arg3 y
  refine congrArg _ (funext fun a => Fin.ext ?_)
  obtain ⟨-, -, -, -, -, -, -, -, e0, e1, -⟩ := idx_facts t
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk4 (c : Dev nD) (t : Fin cfg0.N) : iblk m c 4 t = w1Arr m c := by
  funext y
  show V m c main_arg5 (((cfg0.win 4).blk t).view.emb y) = V m c main_arg5 y
  refine congrArg _ (funext fun a => Fin.ext ?_)
  obtain ⟨-, -, -, -, -, -, -, -, -, -, e0, e1, -⟩ := idx_facts t
  match a with
  | ⟨0, _⟩ => show win0_4.index t (0 : Fin 2) * 192 + 1 * (y 0).val = (y 0).val; omega
  | ⟨1, _⟩ => show win0_4.index t (1 : Fin 2) * 64 + 1 * (y 1).val = (y 1).val; omega

theorem blk5 (c : Dev nD) (t : Fin cfg0.N) : iblk m c 5 t = b1Arr m c := by
  funext y
  show V m c main_v15 (((cfg0.win 5).blk t).view.emb y) = V m c main_v15 y
  refine congrArg _ (funext fun a => Fin.ext ?_)
  obtain ⟨-, -, -, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem blk6 (c : Dev nD) (t : Fin cfg0.N) : iblk m c 6 t = w2Arr m c := by
  funext y
  show V m c main_arg7 (((cfg0.win 6).blk t).view.emb y) = V m c main_arg7 y
  refine congrArg _ (funext fun a => Fin.ext ?_)
  obtain ⟨-, -, -, -, -, -, -, -, -, -, -, -, -, -, e0, e1, -⟩ := idx_facts t
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem blk7 (c : Dev nD) (t : Fin cfg0.N) : iblk m c 7 t = b2Arr m c := by
  funext y
  show V m c main_v16 (((cfg0.win 7).blk t).view.emb y) = V m c main_v16 y
  refine congrArg _ (funext fun a => Fin.ext ?_)
  obtain ⟨-, -, -, -, -, -, -, -, -, -, -, -, -, -, -, -, e0, e1⟩ := idx_facts t
  match a with
  | ⟨0, _⟩ => show win0_7.index t (0 : Fin 2) * 1 + 1 * (y 0).val = (y 0).val; omega
  | ⟨1, _⟩ => show win0_7.index t (1 : Fin 2) * 64 + 1 * (y 1).val = (y 1).val; omega

end Cert.KernelIdeal.BlockValue

end
-- ==== Proof.Layout.lean ====
/-
  Two layout operations read at an index, over the shapes both programs use.

  `gather_rows`: a gather of whole rows of a 64 × 64 table at an [n × 1] column of start indices (what `u[batch]`
  lowers to) reads, at (r, q), the table at row `idx r` — read signed, clamped into [0, 63] — and column `q`.
  `concat3_apply`: three [n × 64] arrays joined along the columns read, at (r, j), the first for j < 64, the second
  at column j − 64 for 64 ≤ j < 128, the third at column j − 128 beyond.
-/
import Idealize.ShloMosaic.Lib.ValueIdx
import Idealize.ShloMosaic.Lib.Pipeline.Value

noncomputable section

open Idealize.ShloMosaic Idealize.ShloMosaic.ValueIdx

namespace Cert.NodeMlp

section Gather
variable {α : Type}

/-- The dimension numbers of a row gather from a 64 × 64 table: the row axis collapsed and start-indexed, the column axis
    kept whole as the result's offset axis, the start indices an [n × 1] column. -/
abbrev rowDims (n : Nat)
    (wf : GatherDims.WF (⟨2, ![64, 64]⟩ : Shape) ⟨2, ![n, 1]⟩ ⟨2, ![n, 64]⟩ [1] [0] [] [0] [] 1 ![1, 64]) :
    GatherDims ⟨2, ![64, 64]⟩ ⟨2, ![n, 1]⟩ ⟨2, ![n, 64]⟩ where
  offsetDims := [1]
  collapsedSliceDims := [0]
  operandBatchingDims := []
  startIndicesBatchingDims := []
  startIndexMap := [0]
  indexVectorDim := 1
  sliceSizes := ![1, 64]
  wf := wf

/-- The operand's row coordinate: the start index of the result's row, signed and clamped. -/
theorem rowDims_coord0 {n w : Nat} (wf) (idx : IVec ⟨2, ![n, 1]⟩ w) (y : (⟨2, ![n, 64]⟩ : Shape).Idx) :
    (rowDims n wf).start y idx 0 + (rowDims n wf).batchCoord y 0 + (rowDims n wf).offCoord y 0
      = min (idx (ix2 (y 0) 0)).toInt.toNat 63 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims n wf).startIndexMap from List.mem_singleton.mpr rfl)]
  have hsi : (rowDims n wf).siIdx y ⟨List.idxOf (0 : Fin 2) (rowDims n wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The operand's column coordinate: the result's column. -/
theorem rowDims_coord1 {n w : Nat} (wf) (idx : IVec ⟨2, ![n, 1]⟩ w) (y : (⟨2, ![n, 64]⟩ : Shape).Idx) :
    (rowDims n wf).start y idx 1 + (rowDims n wf).batchCoord y 1 + (rowDims n wf).offCoord y 1 = (y 1).val := by
  rw [GatherDims.batchCoord_eq_zero _ _ _ List.not_mem_nil]
  unfold GatherDims.start
  rw [dif_neg (show ¬ (1 : Fin 2) ∈ (rowDims n wf).startIndexMap from by show ¬ (1 : Fin 2) ∈ ([0] : List (Fin 2)); decide)]
  unfold GatherDims.offCoord
  rw [dif_pos (show (1 : Fin 2) ∈ (rowDims n wf).sKept from (GatherDims.mem_sKept _ _).2
    ⟨by show ¬ (1 : Fin 2) ∈ ([0] : List (Fin 2)); decide, List.not_mem_nil⟩)]
  simp only [Nat.zero_add, Nat.add_zero]
  rfl

/-- THE ROW GATHER READ AT (r, q). -/
theorem gather_rows {n w : Nat} (wf) (x : (⟨2, ![64, 64]⟩ : Shape).Idx → α) (idx : IVec ⟨2, ![n, 1]⟩ w)
    (y : (⟨2, ![n, 64]⟩ : Shape).Idx) :
    Host.gather (rowDims n wf) x idx y = x (ix2 ⟨min (idx (ix2 (y 0) 0)).toInt.toNat 63, by omega⟩ (y 1)) := by
  unfold Host.gather
  congr 1
  funext a
  refine Fin.ext ?_
  match a with
  | ⟨0, _⟩ => exact rowDims_coord0 wf idx y
  | ⟨1, _⟩ => exact rowDims_coord1 wf idx y

end Gather

section Concat
variable {α : Type}

/-- Three [n × 64] arrays joined along the columns, read at (r, j). -/
theorem concat3_apply {n : Nat} (x y z : (⟨2, ![n, 64]⟩ : Shape).Idx → α)
    (h : Shape.Concatenates [(⟨2, ![n, 64]⟩ : Shape), ⟨2, ![n, 64]⟩, ⟨2, ![n, 64]⟩] ⟨2, ![n, 192]⟩ 1)
    (r : Fin n) (j : Fin 192) :
    concatenate (⟨2, ![n, 192]⟩ : Shape) 1 [⟨⟨2, ![n, 64]⟩, x⟩, ⟨⟨2, ![n, 64]⟩, y⟩, ⟨⟨2, ![n, 64]⟩, z⟩] h (ix2 r j)
      = if h1 : j.val < 64 then x (ix2 r ⟨j.val, h1⟩)
        else if h2 : j.val < 128 then y (ix2 r ⟨j.val - 64, by omega⟩)
        else z (ix2 r ⟨j.val - 128, by have := j.isLt; omega⟩) := by
  have hoff : ∀ (c : Fin 64) (b : Fin 2), b.cast (rfl : (2 : Nat) = 2) ≠ (1 : Fin 2) →
      ((ix2 r c : (⟨2, ![n, 64]⟩ : Shape).Idx) b).val = ((ix2 r j : (⟨2, ![n, 192]⟩ : Shape).Idx) (b.cast rfl)).val := by
    intro c b hb
    match b with
    | ⟨0, _⟩ => rfl
    | ⟨1, _⟩ => exact absurd rfl hb
  have h' : Shape.Concatenates (([⟨⟨2, ![n, 64]⟩, x⟩, ⟨⟨2, ![n, 64]⟩, y⟩, ⟨⟨2, ![n, 64]⟩, z⟩] :
      List ((s : Shape) × (s.Idx → α))).map (·.1)) ⟨2, ![n, 192]⟩ 1 := h
  by_cases h1 : j.val < 64
  · rw [dif_pos h1]
    exact concatenate_apply_piece 1 _ h' (ix2 r j) 0 (by show 0 < 3; omega) _ x rfl rfl 0 rfl (ix2 r ⟨j.val, h1⟩)
      (hoff _) (by show 0 + j.val = j.val; omega)
  · rw [dif_neg h1]
    by_cases h2 : j.val < 128
    · rw [dif_pos h2]
      exact concatenate_apply_piece 1 _ h' (ix2 r j) 1 (by show 1 < 3; omega) _ y rfl rfl 64 rfl (ix2 r ⟨j.val - 64, by omega⟩)
        (hoff _) (by show 64 + (j.val - 64) = j.val; omega)
    · rw [dif_neg h2]
      exact concatenate_apply_piece 1 _ h' (ix2 r j) 2 (by show 2 < 3; omega) _ z rfl rfl 128 rfl
        (ix2 r ⟨j.val - 128, by have := j.isLt; omega⟩) (hoff _) (by show 128 + (j.val - 128) = j.val; omega)

end Concat

end Cert.NodeMlp

end
-- ==== Proof.Payload.lean ====
/-
  The kernel body's one store, read at an entry of its block.

  At row `p` and column `q` of a block of 1000 nodes the stored value is the perceptron of the row
  `[ x p | ve p | Σ_k (label p = k) · u k ]`: each of the three matrix products into a zero accumulator is a plain sum
  over its contraction index, a change of float format is the identity, the two bias rows are read at their column,
  and the three blocks are joined along the columns.
-/
import proofs.«409109_j53970559042217_1_alg».proof.Proof.Gen.KernelIdeal.Skeleton
import proofs.«409109_j53970559042217_1_alg».proof.Proof.Spec
import proofs.«409109_j53970559042217_1_alg».proof.Proof.Layout
import Idealize.ShloMosaic.PureOps.Ideal.Laws
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx Cert.NodeMlp

/-! ## The two matrix products as sums -/

theorem lhs64_0 (i : S1000x64.Idx) (k : dot_S1000x64_S64x64_S1000x64_1_0_0_1_n_n.contr.Idx) :
    (dot_S1000x64_S64x64_S1000x64_1_0_0_1_n_n.lhsIdx i k 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs64_1 (i : S1000x64.Idx) (k : dot_S1000x64_S64x64_S1000x64_1_0_0_1_n_n.contr.Idx) :
    (dot_S1000x64_S64x64_S1000x64_1_0_0_1_n_n.lhsIdx i k 1).val = (k ⟨0, by decide⟩).val :=
  dot_S1000x64_S64x64_S1000x64_1_0_0_1_n_n.lhsIdx_val_of_single rfl i k
theorem rhs64_0 (i : S1000x64.Idx) (k : dot_S1000x64_S64x64_S1000x64_1_0_0_1_n_n.contr.Idx) :
    (dot_S1000x64_S64x64_S1000x64_1_0_0_1_n_n.rhsIdx i k 0).val = (k ⟨0, by decide⟩).val :=
  dot_S1000x64_S64x64_S1000x64_1_0_0_1_n_n.rhsIdx_val_of_single rfl i k
theorem rhs64_1 (i : S1000x64.Idx) (k : dot_S1000x64_S64x64_S1000x64_1_0_0_1_n_n.contr.Idx) :
    (dot_S1000x64_S64x64_S1000x64_1_0_0_1_n_n.rhsIdx i k 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- A [1000 × 64] by [64 × 64] product into a zero accumulator, at (p, q): the sum over the 64 inner positions. -/
theorem matmul64_apply {φ₁ φ₂ : FTy} (l : FVec Ideal S1000x64 φ₁) (r : FVec Ideal S64x64 φ₂) (p : Fin 1000) (q : Fin 64) :
    matmul dot_S1000x64_S64x64_S1000x64_1_0_0_1_n_n none l r (constant S1000x64 .f32 0x00000000#32) (ix2 p q)
      = ∑ k : Fin 64, l (ix2 p k) * r (ix2 k q) := by
  show FloatOps.matmul dot_S1000x64_S64x64_S1000x64_1_0_0_1_n_n none l r (constant S1000x64 .f32 0x00000000#32) (ix2 p q) = _
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 p q) ((ValueIdx.contrEquiv1 dot_S1000x64_S64x64_S1000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S1000x64_S64x64_S1000x64_1_0_0_1_n_n.rhsIdx (ix2 p q) ((ValueIdx.contrEquiv1 dot_S1000x64_S64x64_S1000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

theorem lhs192_0 (i : S1000x64.Idx) (k : dot_S1000x192_S192x64_S1000x64_1_0_0_1_n_n.contr.Idx) :
    (dot_S1000x192_S192x64_S1000x64_1_0_0_1_n_n.lhsIdx i k 0).val = (i 0).val := by
  unfold DotDims.lhsIdx
  rw [dif_neg (show ¬(0 : Fin S1000x192.rank) ∈ dot_S1000x192_S192x64_S1000x64_1_0_0_1_n_n.lhsBatch by decide), dif_pos (show (0 : Fin S1000x192.rank) ∈ dot_S1000x192_S192x64_S1000x64_1_0_0_1_n_n.lhsNonContracting by decide)]
  rfl
theorem lhs192_1 (i : S1000x64.Idx) (k : dot_S1000x192_S192x64_S1000x64_1_0_0_1_n_n.contr.Idx) :
    (dot_S1000x192_S192x64_S1000x64_1_0_0_1_n_n.lhsIdx i k 1).val = (k ⟨0, by decide⟩).val :=
  dot_S1000x192_S192x64_S1000x64_1_0_0_1_n_n.lhsIdx_val_of_single rfl i k
theorem rhs192_0 (i : S1000x64.Idx) (k : dot_S1000x192_S192x64_S1000x64_1_0_0_1_n_n.contr.Idx) :
    (dot_S1000x192_S192x64_S1000x64_1_0_0_1_n_n.rhsIdx i k 0).val = (k ⟨0, by decide⟩).val :=
  dot_S1000x192_S192x64_S1000x64_1_0_0_1_n_n.rhsIdx_val_of_single rfl i k
theorem rhs192_1 (i : S1000x64.Idx) (k : dot_S1000x192_S192x64_S1000x64_1_0_0_1_n_n.contr.Idx) :
    (dot_S1000x192_S192x64_S1000x64_1_0_0_1_n_n.rhsIdx i k 1).val = (i 1).val := by
  unfold DotDims.rhsIdx
  rw [dif_neg (show ¬(1 : Fin S192x64.rank) ∈ dot_S1000x192_S192x64_S1000x64_1_0_0_1_n_n.rhsBatch by decide), dif_pos (show (1 : Fin S192x64.rank) ∈ dot_S1000x192_S192x64_S1000x64_1_0_0_1_n_n.rhsNonContracting by decide)]
  rfl

/-- A [1000 × 192] by [192 × 64] product into a zero accumulator, at (p, q): the sum over the 192 inner positions. -/
theorem matmul192_apply {φ₁ φ₂ : FTy} (l : FVec Ideal S1000x192 φ₁) (r : FVec Ideal S192x64 φ₂) (p : Fin 1000) (q : Fin 64) :
    matmul dot_S1000x192_S192x64_S1000x64_1_0_0_1_n_n none l r (constant S1000x64 .f32 0x00000000#32) (ix2 p q)
      = ∑ j : Fin 192, l (ix2 p j) * r (ix2 j q) := by
  show FloatOps.matmul dot_S1000x192_S192x64_S1000x64_1_0_0_1_n_n none l r (constant S1000x64 .f32 0x00000000#32) (ix2 p q) = _
  rw [Ideal.matmul_constant_zero_apply, ← Equiv.sum_comp (ValueIdx.contrEquiv1 dot_S1000x192_S192x64_S1000x64_1_0_0_1_n_n 192 rfl rfl).symm]
  refine Finset.sum_congr rfl fun k _ => ?_
  have hk := ValueIdx.contrEquiv1_symm_val dot_S1000x192_S192x64_S1000x64_1_0_0_1_n_n 192 rfl rfl k
  have el : dot_S1000x192_S192x64_S1000x64_1_0_0_1_n_n.lhsIdx (ix2 p q) ((ValueIdx.contrEquiv1 dot_S1000x192_S192x64_S1000x64_1_0_0_1_n_n 192 rfl rfl).symm k) = ix2 p k := funext fun a => Fin.ext (by
    match a with
    | ⟨0, _⟩ => exact lhs192_0 _ _
    | ⟨1, _⟩ => exact (lhs192_1 _ _).trans hk)
  have er : dot_S1000x192_S192x64_S1000x64_1_0_0_1_n_n.rhsIdx (ix2 p q) ((ValueIdx.contrEquiv1 dot_S1000x192_S192x64_S1000x64_1_0_0_1_n_n 192 rfl rfl).symm k) = ix2 k q := funext fun a => Fin.ext (by
    match a with
    | ⟨0, _⟩ => exact (rhs192_0 _ _).trans hk
    | ⟨1, _⟩ => exact rhs192_1 _ _)
  rw [el, er]

/-! ## The pieces of a row -/

/-- The indicator entry at (p, k): the label of row `p`, broadcast along the columns, compared with the column number. -/
theorem onehot_apply (v1 : IVec S1000x1 32) (hsc : S1000x1.ShapeCasts S1000x1) (hb : S1000x1.Broadcasts S1000x64)
    (hi : S1000x64.Iotas .tc 32 [1]) (hw : 1 < 32) (hbits : FTy.bf16.bits < FTy.f32.bits) (p : Fin 1000) (k : Fin 64) :
    (truncf .bf16 (sitofp .f32 (extui 32 (cmpi .eq (broadcastTo S1000x64 (shapeCast S1000x1 v1 hsc) hb)
        (iota .tc S1000x64 32 [1] hi)) hw) : FVec Ideal S1000x64 .f32) hbits) (ix2 p k)
      = indicator (v1 (ix2 p 0)) k := by
  show ((((IntOp.cmpi .eq (broadcastTo S1000x64 (shapeCast S1000x1 v1 hsc) hb (ix2 p k))
      (iota .tc S1000x64 32 [1] hi (ix2 p k))).setWidth 32).toInt : ℝ) : EReal) = _
  rw [broadcastTo_apply _ hb (ix2 p k) (ix2 p 0) (fun a => by
      match a with
      | ⟨0, _⟩ => show p.val = if (1000 : Nat) = 1 then 0 else p.val; rw [if_neg (by decide)]
      | ⟨1, _⟩ => show (0 : Nat) = if (1 : Nat) = 1 then 0 else _; rw [if_pos rfl]),
    shapeCast_self, iota_single_apply]
  rfl

/-- A bias row broadcast down the 1000 rows reads its column. -/
theorem bias_apply (v : FVec Ideal S1x64 .f32) (hsc : S1x64.ShapeCasts S1x64) (hb : S1x64.Broadcasts S1000x64)
    (p : Fin 1000) (k : Fin 64) :
    broadcastTo S1000x64 (shapeCast S1x64 v hsc) hb (ix2 p k) = v (ix2 0 k) := by
  rw [broadcastTo_apply _ hb (ix2 p k) (ix2 0 k) (fun a => by
      match a with
      | ⟨0, _⟩ => show (0 : Nat) = if (1 : Nat) = 1 then 0 else _; rw [if_pos rfl]
      | ⟨1, _⟩ => show k.val = if (64 : Nat) = 1 then 0 else k.val; rw [if_neg (by decide)]),
    shapeCast_self]

/-- The third block of the row: the indicator row of the label times the table. -/
theorem third_block (v1 : IVec S1000x1 32) (v8 : FVec Ideal S64x64 .f32) (hsc : S1000x1.ShapeCasts S1000x1)
    (hb : S1000x1.Broadcasts S1000x64) (hi : S1000x64.Iotas .tc 32 [1]) (hw : 1 < 32) (hbits : FTy.bf16.bits < FTy.f32.bits)
    (p : Fin 1000) (c : Fin 64) :
    matmul dot_S1000x64_S64x64_S1000x64_1_0_0_1_n_n none
        (truncf .bf16 (sitofp .f32 (extui 32 (cmpi .eq (broadcastTo S1000x64 (shapeCast S1000x1 v1 hsc) hb)
          (iota .tc S1000x64 32 [1] hi)) hw) : FVec Ideal S1000x64 .f32) hbits)
        (truncf .bf16 v8 hbits) (constant S1000x64 .f32 0x00000000#32) (ix2 p c)
      = pickedBySum (v1 (ix2 p 0)) v8 c := by
  rw [matmul64_apply]
  unfold pickedBySum
  refine Finset.sum_congr rfl fun k _ => ?_
  rw [onehot_apply]
  rfl

/-! ## The store's value -/

/-- THE PAYLOAD AT (p, q): the perceptron of the joined row. -/
theorem payload_apply (v1 : Vec Ideal S1000x1 .i32) (v8 : Vec Ideal S64x64 .f32) (v11 v12 : Vec Ideal S1000x64 .f32)
    (v16 : Vec Ideal S192x64 .f32) (v19 : Vec Ideal S1x64 .f32) (v26 : Vec Ideal S64x64 .f32) (v29 : Vec Ideal S1x64 .f32)
    (p : Fin 1000) (q : Fin 64) :
    k0_pay1 (F := Ideal) v1 v8 v11 v12 v16 v19 v26 v29 (ix2 p q)
      = perceptron (joined (fun c => v11 (ix2 p c)) (fun c => v12 (ix2 p c)) (pickedBySum (v1 (ix2 p 0)) v8))
          v16 (fun k => v19 (ix2 0 k)) v26 (fun k => v29 (ix2 0 k)) q := by
  unfold k0_pay1 perceptron
  show matmul (F := Ideal) dot_S1000x64_S64x64_S1000x64_1_0_0_1_n_n none _ _ _ (ix2 p q)
      + broadcastTo S1000x64 (shapeCast S1x64 v29 _) _ (ix2 p q) = _
  rw [matmul64_apply, bias_apply]
  refine congrArg (· + v29 (ix2 0 q)) (Finset.sum_congr rfl fun k _ => ?_)
  show max (matmul (F := Ideal) dot_S1000x192_S192x64_S1000x64_1_0_0_1_n_n none _ _ _ (ix2 p k)
      + broadcastTo S1000x64 (shapeCast S1x64 v19 _) _ (ix2 p k)) (Ideal.ofBits .f32 0x00000000#32) * v26 (ix2 k q) = _
  rw [matmul192_apply, bias_apply, Ideal.ofBits_zero_f32]
  refine congrArg (fun t => max (t + v19 (ix2 0 k)) 0 * v26 (ix2 k q)) (Finset.sum_congr rfl fun j _ => ?_)
  refine congrArg (· * v16 (ix2 j k)) ?_
  show concatenate S1000x192 1 [⟨S1000x64, v11⟩, ⟨S1000x64, shapeCast S1000x64 v12 _⟩, ⟨S1000x64, _⟩]
    Facts₀.concatenates_S1000x64_S1000x64_S1000x64_S1000x192_d1 (ix2 p j) = _
  refine (concat3_apply (n := 1000) v11 _ _ Facts₀.concatenates_S1000x64_S1000x64_S1000x64_S1000x192_d1 p j).trans ?_
  unfold joined
  by_cases h1 : j.val < 64
  · rw [dif_pos h1, dif_pos h1]
  · rw [dif_neg h1, dif_neg h1]
    by_cases h2 : j.val < 128
    · rw [dif_pos h2, dif_pos h2, shapeCast_self]
    · rw [dif_neg h2, dif_neg h2]
      exact third_block v1 v8 _ _ _ _ _ p _

end Cert.KernelIdeal.Payload

end
-- ==== Proof.BlockValue.lean ====
/-
  From blocks to the array: what the kernel's result array holds after the run.

  What grid point `t` writes back is block row `t` of ONE function of the arrays the region finds (the body's store
  read entry by entry, each input block read where the output's block says); the 50 block rows cover the 50000 rows;
  so the array ends holding that function, and the run is re-posted with it.
-/
import proofs.«409109_j53970559042217_1_alg».proof.Proof.BlockRows
import proofs.«409109_j53970559042217_1_alg».proof.Proof.BlockTables
import proofs.«409109_j53970559042217_1_alg».proof.Proof.Payload

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

/-- WHAT POINT `t` WRITES BACK is block row `t` of `whole`. -/
theorem flushed_eq (c : Dev nD) (t : Fin cfg0.N) :
    (dats m 0 c).flushed 8 t = ((cfg0.win 8).blk t).view.read (Elt Ideal) (whole m c) := by
  rw [Value.flushed8]
  unfold out0_8
  rw [View.canon_unit_zero hz]
  simp only [View.ld_unit_zero (S := S1000x1) hz, View.ld_unit_zero (S := S64x64) hz, View.ld_unit_zero (S := S1000x64) hz,
    View.ld_unit_zero (S := S192x64) hz, View.ld_unit_zero (S := S1x64) hz]
  funext y
  obtain ⟨p, q, rfl⟩ : ∃ (p : Fin 1000) (q : Fin 64), y = ix2 p q := ⟨y 0, y 1, eq_ix2 y⟩
  show k0_pay1 (F := Ideal) (iblk m c 2 t) (iblk m c 3 t) (iblk m c 0 t) (iblk m c 1 t) (iblk m c 4 t) (iblk m c 5 t)
      (iblk m c 6 t) (iblk m c 7 t) (ix2 p q) = whole m c (((cfg0.win 8).blk t).view.emb (ix2 p q))
  have he : ((cfg0.win 8).blk t).view.emb (ix2 p q) = ix2 (rowOf t p) q := by
    funext a; apply Fin.ext
    obtain ⟨-, -, -, -, -, -, e0, e1, -⟩ := idx_facts t
    match a with
    | ⟨0, _⟩ => show win0_8.index t (0 : Fin 2) * 1000 + 1 * p.val = t.val * 1000 + p.val; omega
    | ⟨1, _⟩ => show win0_8.index t (1 : Fin 2) * 64 + 1 * q.val = q.val; omega
  rw [he]
  refine (Payload.payload_apply (iblk m c 2 t) (iblk m c 3 t) (iblk m c 0 t) (iblk m c 1 t) (iblk m c 4 t) (iblk m c 5 t)
    (iblk m c 6 t) (iblk m c 7 t) p q).trans ?_
  rw [blk3 m c t, blk4 m c t, blk5 m c t, blk6 m c t, blk7 m c t, blk2 m c t p,
    show (fun c' => iblk m c 0 t (ix2 p c')) = fun c' => xArr m c (ix2 (rowOf t p) c') from funext fun c' => blk0 m c t p c',
    show (fun c' => iblk m c 1 t (ix2 p c')) = fun c' => veArr m c (ix2 (rowOf t p) c') from funext fun c' => blk1 m c t p c']
  rfl

/-- An index of the array is in point `t`'s block iff each coordinate is in the block's range on its axis. -/
theorem mem_blk (t : Fin cfg0.N) (i : S50000x64.Idx) :
    i ∈ ((cfg0.win 8).blk t).view.set ↔ ∀ a : Fin 2, win0_8.index t a * S1000x64.size a ≤ (i a).val
      ∧ (i a).val < win0_8.index t a * S1000x64.size a + S1000x64.size a := by
  show i ∈ ((View.whole main_v17).slice (win0_8.rect t)).set ↔ _
  rw [View.set_slice_whole, Rect.mem_set_unit]
  exact Iff.rfl

/-- Row `r` lies in block row `r / 1000`: the blocks cover the array. -/
theorem cover (i : S50000x64.Idx) : ∃ t : Fin cfg0.N, (cfg0.win 8).flush t = true ∧ i ∈ ((cfg0.win 8).blk t).view.set := by
  have hi0 : (i 0).val < 50000 := idx2_lt0 i
  have hi1 : (i 1).val < 64 := idx2_lt1 i
  have hN : (i 0).val / 1000 < cfg0.N := lt_of_lt_of_eq (by omega : (i 0).val / 1000 < 50) N_0.symm
  refine ⟨⟨(i 0).val / 1000, hN⟩, flush0_8 _, ?_⟩
  rw [mem_blk]
  obtain ⟨-, -, -, -, -, -, e0, e1, -⟩ := idx_facts ⟨(i 0).val / 1000, hN⟩
  have e0' : win0_8.index ⟨(i 0).val / 1000, hN⟩ (0 : Fin 2) = (i 0).val / 1000 := e0
  intro a
  match a with
  | ⟨0, _⟩ =>
    show win0_8.index ⟨(i 0).val / 1000, hN⟩ (0 : Fin 2) * 1000 ≤ (i 0).val
      ∧ (i 0).val < win0_8.index ⟨(i 0).val / 1000, hN⟩ (0 : Fin 2) * 1000 + 1000
    omega
  | ⟨1, _⟩ =>
    show win0_8.index ⟨(i 0).val / 1000, hN⟩ (1 : Fin 2) * 64 ≤ (i 1).val
      ∧ (i 1).val < win0_8.index ⟨(i 0).val / 1000, hN⟩ (1 : Fin 2) * 64 + 64
    omega

/-- THE ARRAY after the run. -/
theorem final (c : Dev nD) : (dats m 0 c).arrAt 8 cfg0.N = whole m c :=
  (dats m 0 c).arrAt_eq_of_cover 8 (whole m c) (fun t _ => flushed_eq m c t) cover

/-- The frame run re-posted: the result array at its function of the arrays the region finds, the arguments unchanged. -/
theorem run : θ_run defs (onTc (τ := τ) (main (F := Ideal))) ⟨m, fun _ => 0, ρ⟩ fun r => ∀ c : Dev nD,
      r.2.mem ((c : Thread nD τ).loc main_v17) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.BlockValue

end
-- ==== Proof.HostSide.lean ====
/-
  The arrays the host operations before the region prepare, read at an index.

  The label column is the label vector reshaped to [50000 × 1], each bias row the bias vector reshaped to [1 × 64]:
  a reshape keeps the row-major position, so entry (r, 0) of the column is entry r of the vector and entry (0, k) of a
  row is entry k of the vector. The table and the weights come as launched.
-/
import proofs.«409109_j53970559042217_1_alg».proof.Proof.BlockIdx
import Idealize.ShloMosaic.Lib.StableHlo.Run
import Idealize.ShloMosaic.Lib.Pipeline.Value

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

theorem lbl_apply (c : Dev nD) (r : Fin 50000) :
    lblArr m c (ix2 r 0) = (m ((c : Thread nD τ).loc main_arg4) : S50000.Idx → BitVec 32) (ix1 r) := by
  have e : (V m c main_v14 : S50000x1.Idx → BitVec 32)
      = shapeCast S50000x1 (m ((c : Thread nD τ).loc main_arg4) : S50000.Idx → BitVec 32) Facts₀.shapeCasts_S50000_S50000x1 := by
    dsimp only [V, hostOps0]; after_results; rfl
  show (V m c main_v14 : S50000x1.Idx → BitVec 32) (ix2 r 0) = _
  rw [e]
  exact shapeCast_apply _ _ (ix2 r 0) (ix1 r) (by
    rw [Shape.rowMajor_val_two, Shape.rowMajor_val_one]; show r.val = r.val * 1 + 0; omega)

theorem b1_apply (c : Dev nD) (k : Fin 64) :
    b1Arr m c (ix2 0 k) = (m ((c : Thread nD τ).loc main_arg6) : S64.Idx → EReal) (ix1 k) := by
  have e : (V m c main_v15 : S1x64.Idx → EReal)
      = shapeCast S1x64 (m ((c : Thread nD τ).loc main_arg6) : S64.Idx → EReal) Facts₀.shapeCasts_S64_S1x64 := by
    dsimp only [V, hostOps0]; after_results; rfl
  show (V m c main_v15 : S1x64.Idx → EReal) (ix2 0 k) = _
  rw [e]
  exact shapeCast_apply _ _ (ix2 0 k) (ix1 k) (by
    rw [Shape.rowMajor_val_two, Shape.rowMajor_val_one]; show k.val = 0 * 64 + k.val; omega)

theorem b2_apply (c : Dev nD) (k : Fin 64) :
    b2Arr m c (ix2 0 k) = (m ((c : Thread nD τ).loc main_arg8) : S64.Idx → EReal) (ix1 k) := by
  have e : (V m c main_v16 : S1x64.Idx → EReal)
      = shapeCast S1x64 (m ((c : Thread nD τ).loc main_arg8) : S64.Idx → EReal) Facts₀.shapeCasts_S64_S1x64 := by
    dsimp only [V, hostOps0]; after_results; rfl
  show (V m c main_v16 : S1x64.Idx → EReal) (ix2 0 k) = _
  rw [e]
  exact shapeCast_apply _ _ (ix2 0 k) (ix1 k) (by
    rw [Shape.rowMajor_val_two, Shape.rowMajor_val_one]; show k.val = 0 * 64 + k.val; omega)

end Cert.KernelIdeal.BlockValue

end
-- ==== Proof.RefValue.lean ====
/-
  The reference program's result, index by index, is the specification function.

  For node `r` the reference joins the row `[ x r | edge mean r | u (wrapped (batch r)) ]` of width 192, where the
  third block is the table row at the label after the wrap of a negative index, read signed and clamped into [0, 63];
  the hidden layer is `max (row · W1 + b1) 0` and the result `hidden · W2 + b2`. Each stage is read at an index from
  its operands, outermost first, and the edge mean stays an opaque term: no property of it is used.
-/
import proofs.«409109_j53970559042217_1_alg».proof.Proof.Gen.ReferenceIdeal.Read
import proofs.«409109_j53970559042217_1_alg».proof.Proof.Spec
import proofs.«409109_j53970559042217_1_alg».proof.Proof.Layout

noncomputable section

open scoped BigOperators
open Cert.ReferenceIdeal Cert.ReferenceIdeal.Read Idealize.ShloMosaic Idealize.ShloMosaic.ValueIdx

namespace Cert.ReferenceIdeal.RefValue

/-- The wrapped label of node `r`, as the reference's start-index column holds it. -/
theorem label_apply (x4 : (⟨S50000, .i32⟩ : BufTy).Contents (Elt Ideal)) (r : Fin 50000) :
    val_main_v19 (F := Ideal) x4 (ix2 r 0) = Cert.NodeMlp.wrapped (x4 (ix1 r)) := by
  have e : idx_main_v19 (ix2 r 0) = ix1 r := funext fun a => Fin.ext (by match a with | ⟨0, _⟩ => rfl)
  rw [val_main_v19_apply, e, val_main_v18_apply, val_main_v15_apply, val_main_v17_apply, val_main_v14_apply,
    val_main_v16_apply]
  rfl

/-- The third block at (r, c): row `wrapped (batch r)`, clamped, of the table. -/
theorem third_apply (x3 : (⟨S64x64, .f32⟩ : BufTy).Contents (Elt Ideal)) (x4 : (⟨S50000, .i32⟩ : BufTy).Contents (Elt Ideal))
    (r : Fin 50000) (c : Fin 64) :
    val_main_v20 (F := Ideal) x3 x4 (ix2 r c) = Cert.NodeMlp.pickedByIndex (x4 (ix1 r)) x3 c := by
  unfold val_main_v20
  refine (Cert.NodeMlp.gather_rows (n := 50000) Facts₀.gather_S64x64_S50000x1_S50000x64_1_0_n_n_0_1_164_wf x3
    (val_main_v19 (F := Ideal) x4) (ix2 r c)).trans ?_
  unfold Cert.NodeMlp.pickedByIndex
  congr 1
  funext d
  match d with
  | ⟨0, _⟩ =>
    apply Fin.ext
    show min ((val_main_v19 (F := Ideal) x4) (ix2 r 0)).toInt.toNat 63 = min (Cert.NodeMlp.wrapped (x4 (ix1 r))).toInt.toNat 63
    rw [label_apply]
  | ⟨1, _⟩ => rfl

/-- The joined row at (r, j): `[x r | edge mean r | u (batch r)]`. -/
theorem row_apply (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 : (⟨S64x64, .f32⟩ : BufTy).Contents (Elt Ideal))
    (x4 : (⟨S50000, .i32⟩ : BufTy).Contents (Elt Ideal)) (r : Fin 50000) (j : Fin 192) :
    val_main_v21 (F := Ideal) x0 x1 x2 x3 x4 (ix2 r j)
      = Cert.NodeMlp.joined (fun c => x0 (ix2 r c)) (fun c => val_main_v13 (F := Ideal) x1 x2 (ix2 r c))
          (fun c => Cert.NodeMlp.pickedByIndex (x4 (ix1 r)) x3 c) j := by
  unfold val_main_v21 Cert.NodeMlp.joined
  refine (Cert.NodeMlp.concat3_apply (n := 50000) x0 (val_main_v13 (F := Ideal) x1 x2) (val_main_v20 (F := Ideal) x3 x4)
    Facts₀.concatenates_S50000x64_S50000x64_S50000x64_S50000x192_d1 r j).trans ?_
  by_cases h1 : j.val < 64
  · rw [dif_pos h1, dif_pos h1]
  · rw [dif_neg h1, dif_neg h1]
    by_cases h2 : j.val < 128
    · rw [dif_pos h2, dif_pos h2]
    · rw [dif_neg h2, dif_neg h2]
      exact third_apply x3 x4 r _

/-- The hidden layer at (r, k): `max (row r · W1 + b1) 0`. -/
theorem hidden_apply (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 : (⟨S64x64, .f32⟩ : BufTy).Contents (Elt Ideal))
    (x4 : (⟨S50000, .i32⟩ : BufTy).Contents (Elt Ideal)) (x5 : (⟨S192x64, .f32⟩ : BufTy).Contents (Elt Ideal))
    (x6 : (⟨S64, .f32⟩ : BufTy).Contents (Elt Ideal)) (r : Fin 50000) (k : Fin 64) :
    val_main_v26 (F := Ideal) x0 x1 x2 x3 x4 x5 x6 (ix2 r k)
      = max ((∑ j : Fin 192, Cert.NodeMlp.joined (fun c => x0 (ix2 r c)) (fun c => val_main_v13 (F := Ideal) x1 x2 (ix2 r c))
          (fun c => Cert.NodeMlp.pickedByIndex (x4 (ix1 r)) x3 c) j * x5 (ix2 j k)) + x6 (ix1 k)) 0 := by
  have el : ∀ j : Fin 192, lidx_main_v22 (ix2 r k) j = ix2 r j := fun j =>
    funext fun a => Fin.ext (by match a with | ⟨0, _⟩ => rfl | ⟨1, _⟩ => rfl)
  have er : ∀ j : Fin 192, ridx_main_v22 (ix2 r k) j = ix2 j k := fun j =>
    funext fun a => Fin.ext (by match a with | ⟨0, _⟩ => rfl | ⟨1, _⟩ => rfl)
  have eb : idx_main_v23 (idx_main_v24 (ix2 r k)) = ix1 k := funext fun a => Fin.ext (by match a with | ⟨0, _⟩ => rfl)
  rw [val_main_v26_apply, val_main_v25_apply, val_main_v22_apply, val_main_v24_apply, val_main_v23_apply, eb,
    val_main_call0_v0_apply, val_main_call0_cst_apply]
  rw [Ideal.maximumf_def, Ideal.addf_def]
  refine congrArg₂ max (congrArg (· + x6 (ix1 k)) (Finset.sum_congr rfl fun j _ => ?_)) Ideal.ofBits_zero_f32
  rw [el, er, row_apply]

/-- THE REFERENCE'S RESULT IS THE SPECIFICATION: at every (r, q) the two-layer perceptron of the joined row of node `r`. -/
theorem result_eq (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 : (⟨S64x64, .f32⟩ : BufTy).Contents (Elt Ideal))
    (x4 : (⟨S50000, .i32⟩ : BufTy).Contents (Elt Ideal)) (x5 : (⟨S192x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) :
    val_main_v30 (F := Ideal) x0 x1 x2 x3 x4 x5 x6 x7 x8
      = Cert.NodeMlp.result (n := 50000) x0 (val_main_v13 (F := Ideal) x1 x2)
          (fun r q => Cert.NodeMlp.pickedByIndex (x4 (ix1 r)) x3 q) x5 (fun k => x6 (ix1 k)) x7 (fun k => x8 (ix1 k)) := by
  funext i
  obtain ⟨r, q, rfl⟩ : ∃ (r : Fin 50000) (q : Fin 64), i = ix2 r q := ⟨i 0, i 1, eq_ix2 i⟩
  have el : ∀ k : Fin 64, lidx_main_v27 (ix2 r q) k = ix2 r k := fun k =>
    funext fun a => Fin.ext (by match a with | ⟨0, _⟩ => rfl | ⟨1, _⟩ => rfl)
  have er : ∀ k : Fin 64, ridx_main_v27 (ix2 r q) k = ix2 k q := fun k =>
    funext fun a => Fin.ext (by match a with | ⟨0, _⟩ => rfl | ⟨1, _⟩ => rfl)
  have eb : idx_main_v28 (idx_main_v29 (ix2 r q)) = ix1 q := funext fun a => Fin.ext (by match a with | ⟨0, _⟩ => rfl)
  rw [val_main_v30_apply, val_main_v27_apply, val_main_v29_apply, val_main_v28_apply, eb, Ideal.addf_def]
  show _ = (∑ k : Fin 64, max ((∑ j : Fin 192, Cert.NodeMlp.joined (fun c => x0 (ix2 r c))
      (fun c => val_main_v13 (F := Ideal) x1 x2 (ix2 r c)) (fun c => Cert.NodeMlp.pickedByIndex (x4 (ix1 r)) x3 c) j
        * x5 (ix2 j k)) + x6 (ix1 k)) 0 * x7 (ix2 k q)) + x8 (ix1 q)
  refine congrArg (· + x8 (ix1 q)) (Finset.sum_congr rfl fun k _ => ?_)
  rw [el, er, hidden_apply]

end Cert.ReferenceIdeal.RefValue

end
-- ==== Proof.LabelRange.lean ====
/-
  The range of the integer labels, read out of the precondition.

  The precondition is a conjunction of eight tests reduced to one bit; the last of them says that every one of the
  50000 labels `w` passes the two signed comparisons `0 ≤ w` and `w < 64`. A conjunction that is 1 has both sides 1,
  a reduction by `and` over all indices that is 1 met a 1 at every index, and a broadcast scalar reads the scalar at
  every index: so each label is in range.
-/
import proofs.«409109_j53970559042217_1_alg».proof.Defs
import proofs.«409109_j53970559042217_1_alg».proof.Proof.Gen.Pre_finite_inputs
import proofs.«409109_j53970559042217_1_alg».proof.Proof.Spec
import Idealize.ShloMosaic.Lib.ReduceAll
import Idealize.ShloMosaic.Lib.ValueIdx

noncomputable section

open Idealize.ShloMosaic Idealize.ShloMosaic.ValueIdx

namespace Cert.NodeMlp

open Cert.Pre_finite_inputs in
/-- The precondition, over any nine arrays: if it is all ones, every label is in range. -/
theorem inRange_of_fn [Cert.Pre_finite_inputs.Facts]
    (a0 : FVec Ideal S50000x64 .f32) (a1 : IVec S2x800000 32) (a2 : FVec Ideal S800000x64 .f32)
    (a3 : FVec Ideal S64x64 .f32) (a4 : IVec S50000 32) (a5 : FVec Ideal S192x64 .f32) (a6 : FVec Ideal S64 .f32)
    (a7 : FVec Ideal S64x64 .f32) (a8 : FVec Ideal S64 .f32)
    (h : fn (F := Ideal) a0 a1 a2 a3 a4 a5 a6 a7 a8 = (fun _ => 1#1)) (r : Fin 50000) :
    InRange (a4 (ix1 r)) := by
  -- the rank-0 shape has one index
  haveI : Subsingleton S_.Idx := ⟨fun a b => funext fun d => d.elim0⟩
  have e := congrFun h ix0
  unfold fn fn_part1 fn_part2 at e
  dsimp only at e
  -- the outermost conjunction: its second side is the test on the labels
  have e2 := (IntOp.andi_eq_one.1 e).2
  -- a reduction by `and` over all indices that is 1 met a 1 at every index
  have e3 := Host.reduce_andi_all _ _ _ _ ix0 e2 (ix1 r)
  -- the two comparisons, against the broadcast constants 0 and 64
  exact IntOp.andi_eq_one.1 e3

/-- Under the kernel's precondition every label in the launch memory is in range, on every device. -/
theorem label_inRange [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 50000) :
    InRange ((m ((c.tc : Thread Cert.KernelIdeal.nD Cert.KernelIdeal.τ).loc Cert.KernelIdeal.main_arg4) : Cert.KernelIdeal.S50000.Idx → BitVec 32) (Idealize.ShloMosaic.ValueIdx.ix1 r)) :=
  inRange_of_fn _ _ _ _ _ _ _ _ _ (hpre c) r

end Cert.NodeMlp

end
-- ==== Proof.Bridge.lean ====
/-
  The two results are one function of the arguments.

  The kernel's array ends at the perceptron of `[ x r | edge mean r | Σ_k (label r = k) · u k ]` over the arrays its region
  finds; those are the arguments themselves (the features, the table, the weights), the arguments reshaped (the label column,
  the bias rows) and the edge mean — the same host operations of the same arguments as the reference's, so the same
  term. The reference's result is the perceptron of `[ x r | edge mean r | u (wrapped label r, clamped) ]`. Under the
  precondition every label lies in [0, 64), where the indicator sum and the wrapped, clamped read are both row
  `label r` of the table: so the two results agree at every entry.
-/
import proofs.«409109_j53970559042217_1_alg».proof.Proof.BlockValue
import proofs.«409109_j53970559042217_1_alg».proof.Proof.HostSide
import proofs.«409109_j53970559042217_1_alg».proof.Proof.RefValue
import proofs.«409109_j53970559042217_1_alg».proof.Proof.LabelRange

noncomputable section

namespace Cert.Proof.Bridge

open Idealize.ShloMosaic Idealize.ShloMosaic.TcCoe Idealize.SL.Sem Idealize.ShloMosaic.ValueIdx Cert.NodeMlp

/-- The specification respects equality of its seven ingredients, the three that are given entry by entry included. -/
theorem result_congr {n : Nat} {x x' ve ve' : (⟨2, ![n, 64]⟩ : Shape).Idx → EReal} {ug ug' : Fin n → Fin 64 → EReal}
    {W1 W1' : (⟨2, ![192, 64]⟩ : Shape).Idx → EReal} {b1 b1' : Fin 64 → EReal}
    {W2 W2' : (⟨2, ![64, 64]⟩ : Shape).Idx → EReal} {b2 b2' : Fin 64 → EReal}
    (hx : x = x') (hve : ve = ve') (hug : ∀ r q, ug r q = ug' r q) (hW1 : W1 = W1') (hb1 : ∀ k, b1 k = b1' k)
    (hW2 : W2 = W2') (hb2 : ∀ k, b2 k = b2' k) :
    result x ve ug W1 b1 W2 b2 = result x' ve' ug' W1' b1' W2' b2' := by
  obtain rfl := hx
  obtain rfl := hve
  obtain rfl := hW1
  obtain rfl := hW2
  obtain rfl : ug = ug' := funext fun r => funext fun q => hug r q
  obtain rfl : b1 = b1' := funext hb1
  obtain rfl : b2 = b2' := funext hb2
  rfl

variable (m : (ℓ : Loc Cert.KernelIdeal.nD Cert.KernelIdeal.τ Cert.KernelIdeal.sig) → Buf (Elt Ideal) ℓ)

/-- The edge mean the region finds is the reference's edge-mean stage of the same two arguments: the same operations. -/
theorem ve_eq (c : Dev Cert.KernelIdeal.nD) :
    Cert.KernelIdeal.BlockValue.veArr m c
      = Cert.ReferenceIdeal.Read.val_main_v13 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  show (Cert.KernelIdeal.Gen.V m c Cert.KernelIdeal.main_v13 : Cert.KernelIdeal.S50000x64.Idx → EReal) = _
  dsimp only [Cert.KernelIdeal.Gen.V, Cert.KernelIdeal.Gen.hostOps0]
  after_results
  rfl

/-- THE KERNEL'S ARRAY IS THE REFERENCE'S FUNCTION of the kernel's arguments, under the precondition. -/
theorem whole_eq (hpre : Cert.Pre_KernelIdeal m) (c : Dev Cert.KernelIdeal.nD) :
    Cert.KernelIdeal.BlockValue.whole m c
      = result (n := 50000)
          (m ((c : Thread Cert.KernelIdeal.nD Cert.KernelIdeal.τ).loc Cert.KernelIdeal.main_arg0))
          (Cert.ReferenceIdeal.Read.val_main_v13 (F := Ideal)
            (m ((c : Thread Cert.KernelIdeal.nD Cert.KernelIdeal.τ).loc Cert.KernelIdeal.main_arg1))
            (m ((c : Thread Cert.KernelIdeal.nD Cert.KernelIdeal.τ).loc Cert.KernelIdeal.main_arg2)))
          (fun r q => pickedByIndex
            ((m ((c : Thread Cert.KernelIdeal.nD Cert.KernelIdeal.τ).loc Cert.KernelIdeal.main_arg4) : Cert.KernelIdeal.S50000.Idx → BitVec 32) (ix1 r))
            (m ((c : Thread Cert.KernelIdeal.nD Cert.KernelIdeal.τ).loc Cert.KernelIdeal.main_arg3)) q)
          (m ((c : Thread Cert.KernelIdeal.nD Cert.KernelIdeal.τ).loc Cert.KernelIdeal.main_arg5))
          (fun k => (m ((c : Thread Cert.KernelIdeal.nD Cert.KernelIdeal.τ).loc Cert.KernelIdeal.main_arg6) : Cert.KernelIdeal.S64.Idx → EReal) (ix1 k))
          (m ((c : Thread Cert.KernelIdeal.nD Cert.KernelIdeal.τ).loc Cert.KernelIdeal.main_arg7))
          (fun k => (m ((c : Thread Cert.KernelIdeal.nD Cert.KernelIdeal.τ).loc Cert.KernelIdeal.main_arg8) : Cert.KernelIdeal.S64.Idx → EReal) (ix1 k)) := by
  unfold Cert.KernelIdeal.BlockValue.whole
  refine result_congr (Cert.KernelIdeal.Gen.V_main_arg0 m c) (ve_eq m c) (fun r q => ?_) (Cert.KernelIdeal.Gen.V_main_arg5 m c)
    (fun k => Cert.KernelIdeal.BlockValue.b1_apply m c k) (Cert.KernelIdeal.Gen.V_main_arg7 m c)
    (fun k => Cert.KernelIdeal.BlockValue.b2_apply m c k)
  rw [Cert.KernelIdeal.BlockValue.lbl_apply,
    show Cert.KernelIdeal.BlockValue.uArr m c = m ((c : Thread Cert.KernelIdeal.nD Cert.KernelIdeal.τ).loc Cert.KernelIdeal.main_arg3)
      from Cert.KernelIdeal.Gen.V_main_arg3 m c]
  exact picked_eq (label_inRange m hpre c r) _ q

end Cert.Proof.Bridge

end
-- ==== Proof.lean ====
/-
  The certificate: the kernel (a fused gather–concatenate–perceptron over 50 blocks of 1000 graph nodes, fed by a
  host-side segment mean of the edge features) against its jnp reference.

  Both programs compute, for every node `r`, the two-layer perceptron `max (row r · W1 + b1) 0 · W2 + b2` of the row
  `[ x r | mean of the edge features arriving at r | u (batch r) ]`. The segment mean is the same sequence of host
  operations in both and is never opened. The programs differ in how row `batch r` of the table `u` is obtained: the
  kernel multiplies the indicator row `(batch r = k)_k` into `u`, the reference indexes `u` (a negative label counted
  from the end, the result clamped). Outside `0 ≤ batch r < 64` the two differ (the indicator row is zero, the clamped read
  is not), so the claim is stated under that range, which the precondition carries; inside it both are row `batch r`.
  At the ideal instance the matrix products into zero accumulators are plain sums in the same order on both sides and a
  change of float format is the identity, so no law beyond `0 · a = 0`, `1 · a = a` is needed.

  The three frames are the generated ones (the reference's frame is its generated run with the result dropped); the
  idealization rewrote nothing, so `preserves` is trivial; `algebraic` sets the kernel's run, re-posted with the result
  array as one function of the arguments (Proof/BlockValue.lean), beside the reference's generated run, read index by
  index (Proof/RefValue.lean), and joins them by Proof/Bridge.lean.
-/
import proofs.«409109_j53970559042217_1_alg».proof.Defs
import proofs.«409109_j53970559042217_1_alg».proof.Proof.Gen.Kernel
import proofs.«409109_j53970559042217_1_alg».proof.Proof.Gen.Kernel.Skeleton
import proofs.«409109_j53970559042217_1_alg».proof.Proof.Gen.Kernel.Launch
import proofs.«409109_j53970559042217_1_alg».proof.Proof.Gen.Kernel.Points
import proofs.«409109_j53970559042217_1_alg».proof.Proof.Gen.Kernel.Frame
import proofs.«409109_j53970559042217_1_alg».proof.Proof.Gen.KernelIdeal
import proofs.«409109_j53970559042217_1_alg».proof.Proof.Gen.KernelIdeal.Skeleton
import proofs.«409109_j53970559042217_1_alg».proof.Proof.Gen.KernelIdeal.Launch
import proofs.«409109_j53970559042217_1_alg».proof.Proof.Gen.KernelIdeal.Points
import proofs.«409109_j53970559042217_1_alg».proof.Proof.Gen.KernelIdeal.Frame
import proofs.«409109_j53970559042217_1_alg».proof.Proof.Gen.ReferenceIdeal
import proofs.«409109_j53970559042217_1_alg».proof.Proof.Gen.Pre_finite_inputs
import proofs.«409109_j53970559042217_1_alg».proof.Proof.Gen.KernelIdeal.Value
import proofs.«409109_j53970559042217_1_alg».proof.Proof.Gen.ReferenceIdeal.Run
import proofs.«409109_j53970559042217_1_alg».proof.Proof.Gen.ReferenceIdeal.Read
import proofs.«409109_j53970559042217_1_alg».proof.Proof.Bridge
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's, one function
    of its arguments, is the reference's function of the same arguments under the precondition's label range. -/
theorem algebraic : Cert.algebraic_KernelIdeal_ReferenceIdeal := by
  intro m ρ m' ρ' hpre hagree
  refine ⟨fun c => Cert.KernelIdeal.BlockValue.whole m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v30_eq, Cert.ReferenceIdeal.RefValue.result_eq, a0, a1, a2, a3, a4, a5, a6, a7, a8]
  exact (Bridge.whole_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
